-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S22x128 : Shape := ⟨2, ![22, 128]⟩
abbrev S_ : Shape := ⟨0, ![]⟩
abbrev S1x600000 : Shape := ⟨2, ![1, 600000]⟩
abbrev S600000 : Shape := ⟨1, ![600000]⟩

class Facts : Prop where
  bcast_S_S22x128 : S_.BroadcastsInDim S22x128 (![] : Fin 0 → Fin S22x128.rank)
  reducesTo_S22x128_S_d0_1 : S22x128.ReducesTo [0, 1] S_
  h_S_ : 0 < S_.numel
  bcast_S_S100000 : S_.BroadcastsInDim S100000 (![] : Fin 0 → Fin S100000.rank)
  reducesTo_S100000_S_d0 : S100000.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_v10 : IVec S_ 1) (main_v14 : IVec S600000 1) (main_v16 : IVec S600000 32) (main_c_4 : IVec S_ 32) : IVec S_ 1 :=
  let main_v17 : IVec S600000 32 := broadcastInDim S600000 ![] bcast_S_S600000 main_c_4
  let main_v18 : IVec S600000 1 := cmpi .slt main_v16 main_v17
  let main_v19 : IVec S600000 1 := andi main_v14 main_v18
  let main_c_5 : IVec S_ 1 := constantI S_ 1 1#1
  let main_v20 : IVec S_ 1 := (fun x v => Host.reduce IntOp.andi x v reducesTo_S600000_S_d0 h_S_) main_v19 main_c_5
  let main_v21 : IVec S_ 1 := andi main_v10 main_v20
  main_v21

def fn {F : FTy → Type} [FloatOps F] (main_arg0 : IVec S100000 32) (main_arg1 : IVec S2x600000 32) (main_arg2 : FVec F S22x128 .f32) : IVec S_ 1 :=
  let main_v0 : FVec F S22x128 .f32 := Host.absf main_arg2
  let main_cst : FVec F S_ .f32 := constant S_ .f32 0x7F800000#32
  let main_v1 : FVec F S22x128 .f32 := broadcastInDim S22x128 ![] bcast_S_S22x128 main_cst
  let main_v2 : IVec S22x128 1 := cmpf .olt main_v0 main_v1
  let main_c : IVec S_ 1 := constantI S_ 1 1#1
  let main_v3 : IVec S_ 1 := (fun x v => Host.reduce IntOp.andi x v reducesTo_S22x128_S_d0_1 h_S_) main_v2 main_c
  let main_c_0 : IVec S_ 32 := constantI S_ 32 0#32
  let main_v4 : IVec S100000 32 := broadcastInDim S100000 ![] bcast_S_S100000 main_c_0
  let main_v5 : IVec S100000 1 := cmpi .sge main_arg0 main_v4
  let main_c_1 : IVec S_ 32 := constantI S_ 32 22#32
  let main_v6 : IVec S100000 32 := broadcastInDim S100000 ![] bcast_S_S100000 main_c_1
  let main_v7 : IVec S100000 1 := cmpi .slt main_arg0 main_v6
  let main_v8 : IVec S100000 1 := andi main_v5 main_v7
  let main_c_2 : IVec S_ 1 := constantI S_ 1 1#1
  let main_v9 : IVec S_ 1 := (fun x v => Host.reduce IntOp.andi x v reducesTo_S100000_S_d0 h_S_) main_v8 main_c_2
  let main_v10 : IVec S_ 1 := andi main_v3 main_v9
  let main_v11 : IVec S1x600000 32 := (extractStridedSlice S1x600000 ![1, 0] · slices_S2x600000_S1x600000_1_0) main_arg1
  let main_v12 : IVec S600000 32 := shapeCast S600000 main_v11 shapeCasts_S1x600000_S600000
  let main_c_3 : IVec S_ 32 := constantI S_ 32 0#32
  let main_v13 : IVec S600000 32 := broadcastInDim S600000 ![] bcast_S_S600000 main_c_3
  let main_v14 : IVec S600000 1 := cmpi .sge main_v12 main_v13
  let main_v15 : IVec S1x600000 32 := (extractStridedSlice S1x600000 ![1, 0] · slices_S2x600000_S1x600000_1_0) main_arg1
  let main_v16 : IVec S600000 32 := shapeCast S600000 main_v15 shapeCasts_S1x600000_S600000
  let main_c_4 : IVec S_ 32 := constantI S_ 32 100000#32
  fn_part1 (F := F) main_v10 main_v14 main_v16 main_c_4
-- ==== Kernel.lean ====
abbrev S100000 : Shape := ⟨1, ![100000]⟩
abbrev S2x600000 : Shape := ⟨2, ![2, 600000]⟩
abbrev S22x128 : Shape := ⟨2, ![22, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S2200000 : Shape := ⟨1, ![2200000]⟩
abbrev S100000x22 : Shape := ⟨2, ![100000, 22]⟩
abbrev S100000x128 : Shape := ⟨2, ![100000, 128]⟩
abbrev S10000x22 : Shape := ⟨2, ![10000, 22]⟩
abbrev S10000x128 : Shape := ⟨2, ![10000, 128]⟩

abbrev nBuf : Space → Nat
  | .hbm => 29
  | .vmem => 5
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S22x128, .f32⟩
  | .hbm, ⟨3, _⟩ => ⟨S1x600000, .i32⟩
  | .hbm, ⟨4, _⟩ => ⟨S600000, .i32⟩
  | .hbm, ⟨5, _⟩ => ⟨S1x600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S2200000, .f32⟩
  | .hbm, ⟨24, _⟩ => ⟨S600000x1, .i32⟩
  | .hbm, ⟨25, _⟩ => ⟨S2200000, .f32⟩
  | .hbm, ⟨26, _⟩ => ⟨S100000x22, .f32⟩
  | .hbm, ⟨27, _⟩ => ⟨S100000x22, .bf16⟩
  | .hbm, ⟨28, _⟩ => ⟨S100000x128, .f32⟩
  | .local _ .vmem, ⟨0, _⟩ => ⟨S10000x22, .bf16⟩
  | .local _ .vmem, ⟨1, _⟩ => ⟨S10000x22, .bf16⟩
  | .local _ .vmem, ⟨2, _⟩ => ⟨S22x128, .f32⟩
  | .local _ .vmem, ⟨3, _⟩ => ⟨S10000x128, .f32⟩
  | .local _ .vmem, ⟨4, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x22 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S2200000 : S_.BroadcastsInDim S2200000 (![] : Fin 0 → Fin S2200000.rank)
  shapeCasts_S2200000_S100000x22 : S2200000.ShapeCasts S100000x22
  bitsLt_bf16_f32 : FTy.bits .bf16 < FTy.bits .f32
  inb_S10000x22_S10000x22_0_0 : ∀ a, (![0, 0] : Fin 2 → Nat) a + S10000x22.size a ≤ S10000x22.size a
  h_S10000x22 : 0 < S10000x22.numel
  shapeCasts_S10000x22_S10000x22 : S10000x22.ShapeCasts S10000x22
  inb_S22x128_S22x128_0_0 : ∀ a, (![0, 0] : Fin 2 → Nat) a + S22x128.size a ≤ S22x128.size a
  h_S22x128 : 0 < S22x128.numel
  inb_S10000x128_S10000x128_0_0 : ∀ a, (![0, 0] : Fin 2 → Nat) a + S10000x128.size a ≤ S10000x128.size a
  h_S10000x128 : 0 < S10000x128.numel
  gather_S100000_S600000x1_S600000_n_0_n_n_0_1_1_wf : GatherDims.WF S100000 S600000x1 S600000 [] [0] [] [0] [] 1 ![1]
  scatter_S2200000_S600000x1_S600000_n_0_0_1_wf : ScatterDims.WF S2200000 S600000x1 S600000 [] [0] [0] 1
  dot_S10000x22_S22x128_S10000x128_1_0_0_1_n_n_wf : DotDims.WF S10000x22 S22x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x22.size a ≤ S100000x22.size a
  hwx0_0 : ∀ i : grid0.Coords, EltTy.bits .bf16 = 32 ∨ (Rect.block (s := S100000x22) S10000x22.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x128.size a ≤ S22x128.size a
  hwx0_1 : ∀ i : grid0.Coords, EltTy.bits .f32 = 32 ∨ (Rect.block (s := S22x128) S22x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S2200000_S600000x1_S600000_n_0_0_1 : ScatterDims S2200000 S600000x1 S600000 where
  updateWindowDims := []
  insertedWindowDims := [0]
  scatterDimsToOperandDims := [0]
  indexVectorDim := 1
  wf := scatter_S2200000_S600000x1_S600000_n_0_0_1_wf
def dot_S10000x22_S22x128_S10000x128_1_0_0_1_n_n : DotDims S10000x22 S22x128 S10000x128 where
  lhsContracting := [1]
  rhsContracting := [0]
  lhsNonContracting := [0]
  rhsNonContracting := [1]
  lhsBatch := []
  rhsBatch := []
  wf := dot_S10000x22_S22x128_S10000x128_1_0_0_1_n_n_wf

abbrev win0_0 : Pipeline.Window sig grid0 :=
  Pipeline.Window.ofSpec (Memref.whole main_v19) S10000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S22x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S2x600000 : Shape := ⟨2, ![2, 600000]⟩
abbrev S22x128 : Shape := ⟨2, ![22, 128]⟩
abbrev S_ : Shape := ⟨0, ![]⟩
abbrev S100000x1 : Shape := ⟨2, ![100000, 1]⟩
abbrev S100000x128 : Shape := ⟨2, ![100000, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S22x128, .f32⟩
  | .hbm, ⟨3, _⟩ => ⟨S_, .i32⟩
  | .hbm, ⟨4, _⟩ => ⟨S100000, .i32⟩
  | .hbm, ⟨5, _⟩ => ⟨S100000, .i1⟩
  | .hbm, ⟨6, _⟩ => ⟨S_, .i32⟩
  | .hbm, ⟨7, _⟩ => ⟨S100000, .i32⟩
  | .hbm, ⟨8, _⟩ => ⟨S100000, .i32⟩
  | .hbm, ⟨9, _⟩ => ⟨S100000, .i32⟩
  | .hbm, ⟨10, _⟩ => ⟨S100000x1, .i32⟩
  | .hbm, ⟨11, _⟩ => ⟨S100000x128, .f32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S1x600000, .i32⟩
  | .hbm, ⟨24, _⟩ => ⟨S600000, .i32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S100000x128 : S_.BroadcastsInDim S100000x128 (![] : Fin 0 → Fin S100000x128.rank)
  gather_S22x128_S100000x1_S100000x128_1_0_n_n_0_1_1128_wf : GatherDims.WF S22x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def gather_S22x128_S100000x1_S100000x128_1_0_n_n_0_1_1128 : GatherDims S22x128 S100000x1 S100000x128 where
  offsetDims := [1]
  collapsedSliceDims := [0]
  operandBatchingDims := []
  startIndicesBatchingDims := []
  startIndexMap := [0]
  indexVectorDim := 1
  sliceSizes := ![1, 128]
  wf := gather_S22x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.LibDot.lean ====
/-
  A matrix product read at an index.

  For dimension numbers that contract the left operand's axis 1 against the right operand's axis 0, with no batch
  axes (the ordinary product of an M×K matrix with a K×N matrix), the contraction sum at the output index (r, c) is
  the sum over k of the left operand at (r, k) times the right operand at (k, c). This holds for a kernel's matrix
  unit and for the host's dot product alike: both are stated over the same dimension-number record.
-/
import Idealize.ShloMosaic.Lib.ValueIdx
import Idealize.ShloMosaic.PureOps.Ideal.Laws

noncomputable section

namespace Cert.LibDot

open Idealize.ShloMosaic Idealize.ShloMosaic.ValueIdx

/-- The contraction sum of a plain matrix product at the output index `(r, c)`. -/
theorem sum_std {M K N : ℕ} (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (w : (⟨2, ![K, N]⟩ : Shape).Idx → EReal) (r : Fin M) (c : Fin N) :
    ∑ q : d.contr.Idx, l (d.lhsIdx (ix2 r c) q) * w (d.rhsIdx (ix2 r c) q)
      = ∑ k : Fin K, l (ix2 r k) * w (ix2 k c) := by
  have hr : d.contr.rank = 1 := by rw [d.rank_contr, hlc]; rfl
  have hs : d.contr.size ⟨0, by omega⟩ = K := by
    have h := d.size_contr 0 (by rw [hlc]; exact Nat.one_pos)
    have h1 : d.lhsContracting[0]'(by rw [hlc]; exact Nat.one_pos) = (1 : Fin 2) := by simp [hlc]
    rw [h1] at h
    exact h
  -- a coordinate of an index depends on the axis's position only
  have key : ∀ (j : (⟨2, ![M, N]⟩ : Shape).Idx) (p q : Nat) (hp : p < 2) (hq : q < 2), p = q →
      (j ⟨p, hp⟩).val = (j ⟨q, hq⟩).val := fun j p q hp hq h => by subst h; rfl
  refine (Equiv.sum_comp (contrEquiv1 d K hr hs).symm _).symm.trans ?_
  refine Finset.sum_congr rfl fun k _ => ?_
  -- the left operand is read at (r, k)
  have hL : d.lhsIdx (ix2 r c) ((contrEquiv1 d K hr hs).symm k) = ix2 r k := by
    funext a
    apply Fin.ext
    match a with
    | ⟨0, h0⟩ =>
      have hb : (⟨0, h0⟩ : Fin 2) ∉ d.lhsBatch := by rw [hlb]; exact List.not_mem_nil
      have hn : (⟨0, h0⟩ : Fin 2) ∈ d.lhsNonContracting := by rw [hln]; exact List.mem_singleton.mpr rfl
      unfold DotDims.lhsIdx
      rw [dif_neg hb, dif_pos hn]
      simp only [Fin.val_cast]
      exact key (ix2 r c) _ 0 _ (by omega) (by simp [hlb, hln])
    | ⟨1, h1⟩ =>
      have h := d.lhsIdx_val_of_single hlc (ix2 r c) ((contrEquiv1 d K hr hs).symm k)
      rw [contrEquiv1_symm_val] at h
      exact h
  -- the right operand is read at (k, c)
  have hR : d.rhsIdx (ix2 r c) ((contrEquiv1 d K hr hs).symm k) = ix2 k c := by
    funext a
    apply Fin.ext
    match a with
    | ⟨0, h0⟩ =>
      have h := d.rhsIdx_val_of_single hrc (ix2 r c) ((contrEquiv1 d K hr hs).symm k)
      rw [contrEquiv1_symm_val] at h
      exact h
    | ⟨1, h1⟩ =>
      have hb : (⟨1, h1⟩ : Fin 2) ∉ d.rhsBatch := by rw [hrb]; exact List.not_mem_nil
      have hn : (⟨1, h1⟩ : Fin 2) ∈ d.rhsNonContracting := by rw [hrn]; exact List.mem_singleton.mpr rfl
      unfold DotDims.rhsIdx
      rw [dif_neg hb, dif_pos hn]
      simp only [Fin.val_cast]
      exact key (ix2 r c) _ 1 _ (by omega) (by simp [hlb, hln, hrn])
  rw [hL, hR]

end Cert.LibDot

end
-- ==== Proof.KernelProduct.lean ====
/-
  The matrix product the kernel's region writes.

  The region walks the 100000 rows of a counts table in ten blocks of 10000 rows; at each block it multiplies the block
  (10000 × 22) with the whole embedding table (22 × 128) into a zero accumulator and writes the 10000 × 128 result back under
  the same block of rows. A change of float format is the identity on the extended reals, so the block's entry at
  (p, q) is the sum over the 22 categories k of counts (p, k) · embedding (k, q); and since block t holds the rows
  10000·t … 10000·t + 9999, and the ten blocks cover all rows, the whole result array is the product of the whole counts
  table with the embedding table.
-/
import proofs.«422920_j17368847745439_3_alg».proof.Proof.Gen.KernelIdeal.Value
import proofs.«422920_j17368847745439_3_alg».proof.Proof.LibDot
import Idealize.ShloMosaic.Lib.ValueIdx
import Idealize.ShloMosaic.Lib.Pipeline.Value
import Idealize.ShloMosaic.PureOps.Ideal.Laws

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

/-- The product of a counts table with the embedding table, index by index. -/
def prod (C : FVec Ideal S100000x22 .bf16) (W : FVec Ideal S22x128 .f32) : FVec Ideal S100000x128 .f32 :=
  fun i => ∑ k : Fin 22, C (ix2 (i 0) k) * W (ix2 k (i 1))

theorem hz : (![0, 0] : Fin 2 → Nat) = fun _ => 0 := funext fun a => by fin_cases a <;> rfl

/-- One block's result at (p, q): the sum over the categories of the block's counts times the embedding. -/
theorem pay_apply (x0 : FVec Ideal S10000x22 .bf16) (x1 : FVec Ideal S22x128 .f32) (p : Fin 10000) (q : Fin 128) :
    k0_pay1 (F := Ideal) x0 x1 (ix2 p q) = ∑ k : Fin 22, x0 (ix2 p k) * x1 (ix2 k q) := by
  unfold k0_pay1
  rw [shapeCast_self]
  refine (Ideal.matmul_constant_zero_apply dot_S10000x22_S22x128_S10000x128_1_0_0_1_n_n none x0
    (truncf .bf16 x1 bitsLt_bf16_f32) (ix2 p q)).trans ?_
  exact Cert.LibDot.sum_std (M := 10000) (K := 22) (N := 128) dot_S10000x22_S22x128_S10000x128_1_0_0_1_n_n rfl rfl rfl rfl rfl rfl x0
    (truncf .bf16 x1 bitsLt_bf16_f32) p q

variable (m : (ℓ : Loc nD τ sig) → Buf (Elt Ideal) ℓ)

/-- The counts table as the region finds it, and the embedding table. -/
abbrev counts (c : Dev nD) : FVec Ideal S100000x22 .bf16 := V m c main_v19
abbrev table (c : Dev nD) : FVec Ideal S22x128 .f32 := V m c main_arg2

/-- The printed index maps over the ten points: the counts and the result move together, block t at point t, and the
    embedding table is always its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The counts block at point t holds rows 10000·t + p of the counts table. -/
theorem counts_blk (c : Dev nD) (t : Fin cfg0.N) (p : Fin 10000) (k : Fin 22) (r : Fin 100000) (hr : r.val = t.val * 10000 + p.val) :
    iblk m c 0 t (ix2 p k) = counts m c (ix2 r k) := by
  obtain ⟨e0, e1, -, -, -, -⟩ := idx_facts t
  unfold iblk
  rw [View.read_apply]
  refine (cast_eq _ _).trans ?_
  show V m c main_v19 (((cfg0.win 0).blk t).view.emb (ix2 p k)) = V m c main_v19 (ix2 r k)
  refine congrArg (V m c main_v19) ?_
  funext a; apply Fin.ext
  match a with
  | ⟨0, _⟩ => show win0_0.index t (0 : Fin 2) * 10000 + 1 * p.val = r.val; omega
  | ⟨1, _⟩ => show win0_0.index t (1 : Fin 2) * 22 + 1 * k.val = k.val; omega

/-- The embedding block at every point is the whole embedding table. -/
theorem table_blk (c : Dev nD) (t : Fin cfg0.N) (k : Fin 22) (q : Fin 128) :
    iblk m c 1 t (ix2 k q) = table m c (ix2 k q) := by
  obtain ⟨-, -, e2, e3, -, -⟩ := idx_facts t
  unfold iblk
  rw [View.read_apply]
  refine (cast_eq _ _).trans ?_
  show V m c main_arg2 (((cfg0.win 1).blk t).view.emb (ix2 k q)) = V m c main_arg2 (ix2 k q)
  refine congrArg (V m c main_arg2) ?_
  funext a; apply Fin.ext
  match a with
  | ⟨0, _⟩ => show win0_1.index t (0 : Fin 2) * 22 + 1 * k.val = k.val; omega
  | ⟨1, _⟩ => show win0_1.index t (1 : Fin 2) * 128 + 1 * q.val = q.val; omega

/-- A block index of the result window, as the window's own index of its (uncut) block. -/
theorem xinj_eq (t : Fin cfg0.N) (p : Fin 10000) (q : Fin 128) :
    (cfg0.win 2).xinj (grid0.coords t) (ix2 p q) = ix2 p q := by
  funext a
  match a with
  | ⟨0, _⟩ => exact Fin.ext rfl
  | ⟨1, _⟩ => exact Fin.ext rfl

/-- What point t writes back is block t of the product of the counts table with the embedding table. -/
theorem flushed_eq (c : Dev nD) (t : Fin cfg0.N) :
    (dats m 0 c).flushed 2 t = ((cfg0.win 2).blk t).view.read (Elt Ideal) (prod (counts m c) (table m c)) := by
  rw [Value.flushed2]
  unfold out0_2
  rw [View.canon_unit_zero hz]
  simp only [View.ld_unit_zero (S := S10000x22) hz, View.ld_unit_zero (S := S22x128) hz]
  funext j
  obtain ⟨p, q, rfl⟩ : ∃ (p : Fin 10000) (q : Fin 128), j = ix2 p q := ⟨j 0, j 1, eq_ix2 j⟩
  obtain ⟨-, -, -, -, e4, e5⟩ := idx_facts t
  have ht : t.val < 10 := t.isLt
  rw [View.read_apply]
  refine Eq.trans ?_ (cast_eq _ _).symm
  show k0_pay1 (F := Ideal) (iblk m c 0 t) (iblk m c 1 t) ((cfg0.win 2).xinj (grid0.coords t) (ix2 p q))
    = prod (counts m c) (table m c) (((cfg0.win 2).blk t).view.emb (ix2 p q))
  rw [xinj_eq]
  refine (pay_apply (iblk m c 0 t) (iblk m c 1 t) p q).trans ?_
  have hrow : ((((cfg0.win 2).blk t).view.emb (ix2 p q)) 0).val = t.val * 10000 + p.val := by
    show win0_2.index t (0 : Fin 2) * 10000 + 1 * p.val = _; omega
  have hcol : ((((cfg0.win 2).blk t).view.emb (ix2 p q)) 1).val = q.val := by
    show win0_2.index t (1 : Fin 2) * 128 + 1 * q.val = _; omega
  unfold prod
  refine Finset.sum_congr rfl fun k _ => ?_
  rw [counts_blk m c t p k _ hrow, table_blk m c t k q]
  congr 2
  funext a; apply Fin.ext
  match a with
  | ⟨0, _⟩ => rfl
  | ⟨1, _⟩ => exact hcol.symm

/-- An index of the result is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v20).slice (win0_2.rect t)).set ↔ _
  rw [View.set_slice_whole, Rect.mem_set_unit]
  exact Iff.rfl

/-- Every row of the result is under the block of the point its row number divided by 10000 names. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e4, e5⟩ := idx_facts t
  have htv : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the run is the product of the counts table, as the region finds it, with the embedding table. -/
theorem final (c : Dev nD) : (dats m 0 c).arrAt 2 cfg0.N = prod (counts m c) (table m c) :=
  (dats m 0 c).arrAt_eq_of_cover 2 (prod (counts m c) (table m c)) (fun t _ => flushed_eq m c t) cover

end Cert.KernelIdeal.Product

end
-- ==== Proof.Spec.lean ====
/-
  What both programs compute, stated once, and the counting law that joins their two arrangements.

  There are 600000 edges. Edge `e` has a SOURCE POSITION in the code table of 100000 entries (row 0 of the edge table: a
  word below zero counts from the table's end, and the position is held inside the table), a CATEGORY WORD (the code table at
  that position), a CATEGORY among the 22 embedding rows (the category word, again counted from the end when negative and held
  inside the table) and a DESTINATION WORD (row 1 of the edge table, read signed). Row `j` of the result is the sum, over the
  edges whose destination is `j`, of the embedding row of the edge's category.

  One program adds the embedding rows edge by edge. The other first counts, for every destination `j` and category `c`, the
  edges with that pair (a histogram over the flat cell number `22 · j + c`), and then multiplies the counts with the embedding
  table. They agree because a count times a row is the row added that many times (the counts are sums of ones, which
  distribute over any extended real), and because summing over the categories and, inside each, over the edges of that category is
  summing over all the edges.
-/
import Idealize.ShloMosaic.Lib.ValueIdx
import Idealize.ShloMosaic.Lib.StableHlo.Predicate

noncomputable section

open scoped BigOperators

namespace Cert.CycleSum

open Idealize.ShloMosaic Idealize.ShloMosaic.ValueIdx

/-! ## Index words -/

/-- An index word counted from the end of a table of `n` entries when it is below zero: `n` is added to a negative word,
    any other word is kept. -/
def fromEnd (n w : BitVec 32) : BitVec 32 := Scalar.select (IntOp.cmpi .slt w 0#32) (IntOp.addi w n) w

/-- A word as a position in a table of `N` entries: read signed, a negative word is position 0 and a word past the end the
    last position. -/
def pos (N : Nat) (hN : 0 < N) (w : BitVec 32) : Fin N := ⟨min w.toInt.toNat (N - 1), by omega⟩

/-- A word in `[0, N)` is kept by `fromEnd`. -/
theorem fromEnd_of_nonneg (n w : BitVec 32) (h0 : 0 ≤ w.toInt) : fromEnd n w = w := by
  unfold fromEnd IntOp.cmpi
  have : w.slt 0#32 = false := by
    simp only [BitVec.slt, decide_eq_false_iff_not, not_lt]
    simpa using h0
  rw [this]
  rfl

/-- A word in `[0, N)` is its own position. -/
theorem pos_val_of_range (N : Nat) (hN : 0 < N) (w : BitVec 32) (h0 : 0 ≤ w.toInt) (h1 : w.toInt < N) :
    ((pos N hN w).val : ℤ) = w.toInt := by
  unfold pos
  simp only
  omega

/-! ## The edges -/

section Edges

variable (x : IVec ⟨1, ![100000]⟩ 32) (a : IVec ⟨2, ![2, 600000]⟩ 32) (emb : (⟨2, ![22, 128]⟩ : Shape).Idx → EReal)

/-- Edge `e`'s position in the code table. -/
def srcPos (e : Fin 600000) : Fin 100000 := pos 100000 (by decide) (fromEnd 100000#32 (a (ix2 (0 : Fin 2) e)))
/-- Edge `e`'s category word. -/
def catWord (e : Fin 600000) : BitVec 32 := x (ix1 (srcPos a e))
/-- Edge `e`'s category, a row of the embedding table. -/
def catPos (e : Fin 600000) : Fin 22 := pos 22 (by decide) (fromEnd 22#32 (catWord x a e))
/-- Edge `e`'s destination word. -/
def destWord (e : Fin 600000) : BitVec 32 := a (ix2 (1 : Fin 2) e)
/-- The edges whose destination is `j`. -/
def into (j : Fin 100000) : Finset (Fin 600000) := Finset.univ.filter fun e => (destWord a e).toInt = (j.val : ℤ)

/-- THE RESULT: row `j`, column `d` is the sum over the edges into `j` of the embedding of the edge's category at column `d`. -/
def result : (⟨2, ![100000, 128]⟩ : Shape).Idx → EReal := fun i =>
  ∑ e ∈ into a (i 0), emb (ix2 (catPos x a e) (i 1))

end Edges

/-! ## The counting law -/

/-- A count (a sum of ones) times an extended real is that extended real added once per counted element: sums of ones are not
    negative, and a product distributes over a sum of two non-negative extended reals. -/
theorem count_mul {ι : Type} [DecidableEq ι] (S : Finset ι) (v : EReal) : (∑ _e ∈ S, (1 : EReal)) * v = ∑ _e ∈ S, v := by
  induction S using Finset.induction_on with
  | empty => simp
  | insert e S he ih =>
    rw [Finset.sum_insert he, Finset.sum_insert he,
      EReal.right_distrib_of_nonneg zero_le_one (Finset.sum_nonneg fun _ _ => zero_le_one), one_mul, ih]

/-- A histogram by category, multiplied with one value per category and summed over the categories, is the sum over the
    counted elements of their category's value. -/
theorem hist_mul {ι κ : Type} [DecidableEq ι] [Fintype κ] [DecidableEq κ] (S : Finset ι) (ct : ι → κ) (v : κ → EReal) :
    ∑ c : κ, (∑ _e ∈ S.filter (fun e => ct e = c), (1 : EReal)) * v c = ∑ e ∈ S, v (ct e) := by
  rw [← Finset.sum_fiberwise S ct (fun e => v (ct e))]
  refine Finset.sum_congr rfl fun c _ => ?_
  rw [count_mul]
  exact Finset.sum_congr rfl fun e he => by rw [(Finset.mem_filter.mp he).2]

/-! ## The flat cell number -/

/-- With the destination in `[0, 100000)` and the category word in `[0, 22)`, the flat cell word `22 · destination + category`
    does not wrap, and it names cell `22 · j + c` exactly when the destination is `j` and the category is `c`. -/
theorem flat_eq_iff (d cw : BitVec 32) (hd0 : 0 ≤ d.toInt) (hd : d.toInt < 100000) (hc0 : 0 ≤ cw.toInt) (hc : cw.toInt < 22)
    (j : Fin 100000) (c : Fin 22) :
    (IntOp.addi (IntOp.muli d 22#32) cw).toInt = ((j.val * 22 + c.val : ℕ) : ℤ)
      ↔ d.toInt = (j.val : ℤ) ∧ pos 22 (by decide) (fromEnd 22#32 cw) = c := by
  have hdn : d.toNat < 100000 := by
    have := d.isLt
    unfold BitVec.toInt at hd0 hd
    split at hd <;> omega
  have hcn : cw.toNat < 22 := by
    have := cw.isLt
    unfold BitVec.toInt at hc0 hc
    split at hc <;> omega
  have hdi : d.toInt = (d.toNat : ℤ) := StableHlo.Predicate.toInt_eq_toNat_of_lt (by omega)
  have hci : cw.toInt = (cw.toNat : ℤ) := StableHlo.Predicate.toInt_eq_toNat_of_lt (by omega)
  have hflat : (IntOp.addi (IntOp.muli d 22#32) cw).toNat = d.toNat * 22 + cw.toNat := by
    unfold IntOp.addi IntOp.muli
    rw [BitVec.toNat_add, BitVec.toNat_mul]
    simp only [BitVec.toNat_ofNat]
    omega
  have hfi : (IntOp.addi (IntOp.muli d 22#32) cw).toInt = ((d.toNat * 22 + cw.toNat : ℕ) : ℤ) := by
    rw [StableHlo.Predicate.toInt_eq_toNat_of_lt (by omega), hflat]
  have hp : ((pos 22 (by decide) (fromEnd 22#32 cw)).val : ℤ) = cw.toInt := by
    rw [fromEnd_of_nonneg _ _ hc0]
    exact pos_val_of_range 22 (by decide) cw hc0 hc
  have hj := j.isLt
  have hcl := c.isLt
  rw [hfi, hdi]
  constructor
  · intro h
    have h' : d.toNat * 22 + cw.toNat = j.val * 22 + c.val := by exact_mod_cast h
    refine ⟨by omega, Fin.ext ?_⟩
    have : ((pos 22 (by decide) (fromEnd 22#32 cw)).val : ℤ) = (c.val : ℤ) := by rw [hp, hci]; omega
    exact_mod_cast this
  · rintro ⟨h1, h2⟩
    have h2' : ((pos 22 (by decide) (fromEnd 22#32 cw)).val : ℤ) = (c.val : ℤ) := by rw [h2]
    rw [hp, hci] at h2'
    have : d.toNat = j.val := by exact_mod_cast h1
    have : cw.toNat = c.val := by exact_mod_cast h2'
    push_cast
    omega

end Cert.CycleSum

end
-- ==== Proof.LibIndexed.lean ====
/-
  A take of rows, and two accumulating scatters, read at an index.

  TAKE OF ROWS. `table[idx]` for a table of N rows of D entries and a column of n index words: row p of the result is
  the table's row at position `idx p`, read signed and held inside the table (a negative word reads row 0, a word past the end
  the last row), and column q of it is column q of that row.

  ACCUMULATING SCATTER. Update e (or row e of the updates) is added at the position its index word names, read signed
  and NOT held inside the operand: an update whose word is outside the operand is dropped. So an operand cell ends at its old
  value plus the sum of the updates whose index word is the cell's position; for a scatter of whole rows, column q of an operand
  row receives column q of each update row sent to that row. Stated for a flat operand of M cells and for an operand of N rows
  of D entries, both with a column of n index words.
-/
import Idealize.ShloMosaic.Lib.ValueIdx
import Idealize.ShloMosaic.Lib.StableHlo.Predicate

noncomputable section

open scoped BigOperators

namespace Cert.LibIndexed

open Idealize.ShloMosaic Idealize.ShloMosaic.ValueIdx
open Idealize.ShloMosaic.StableHlo.Predicate (ixP)

/-! ## A take of rows -/

/-- Row `p`, column `q` of a take of rows: the table at the row position the index word `idx p` names (read signed, held
    inside the table) and column `q`. The hypotheses are the dimension numbers of `table[idx]`: the row axis collapsed and
    start-indexed, the column axis the one offset axis, no batching, the index vector on axis 1. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q) = x (ix2 ⟨min (idx (ixP p)).toInt.toNat (N - 1), by omega⟩ q) := by
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    have hsi : ∀ c, (GatherDims.siIdx ⟨[1], [0], [], sb, [0], 1, ss, wf⟩ (ix2 p q) c : (⟨2, ![n, 1]⟩ : Shape).Idx) = ixP p := by
      intro c
      funext b
      apply Fin.ext
      match b with
      | ⟨0, _⟩ =>
        simp [GatherDims.siIdx, GatherDims.siCoord, GatherDims.batchDims, GatherDims.siKept, Shape.kept, List.finRange_succ]
        rfl
      | ⟨1, _⟩ =>
        have hc : c.val = 0 := by have := c.isLt; change c.val < 1 at this; omega
        simp [GatherDims.siIdx, hc]
    simp [GatherDims.operandIdx, GatherDims.start, GatherDims.batchCoord, GatherDims.offCoord, GatherDims.sKept, Shape.kept, List.finRange_succ, hsi, hsl]
  | ⟨1, _⟩ =>
    simp [GatherDims.operandIdx, GatherDims.start, GatherDims.batchCoord, GatherDims.offCoord, GatherDims.sKept, Shape.kept, List.finRange_succ]
    rfl

/-! ## Where an update lands -/

/-- Where a row update lands. -/
theorem scatter_rows_resultIdx {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (e : Fin n) (q : Fin D) (i : (⟨2, ![N, D]⟩ : Shape).Idx) :
    d.resultIdx? (ix2 e q) idx = some i ↔ (idx (ixP e)).toInt = ((i 0).val : ℤ) ∧ q.val = (i 1).val := by
  obtain ⟨uw, iw, sd, ivd, wf⟩ := d
  simp only at huw hiw hsd hivd
  subst huw hiw hsd hivd
  have hsi : ∀ c, (ScatterDims.siIdx ⟨[1], [0], [0], 1, wf⟩ (ix2 e q) c : (⟨2, ![n, 1]⟩ : Shape).Idx) = ixP e := by
    intro c
    funext b
    apply Fin.ext
    match b with
    | ⟨0, _⟩ =>
      simp [ScatterDims.siIdx, ScatterDims.siCoord, ScatterDims.uScatter, ScatterDims.siKept, Shape.kept, List.finRange_succ]
      rfl
    | ⟨1, _⟩ =>
      have hc : c.val = 0 := by have := c.isLt; change c.val < 1 at this; omega
      simp [ScatterDims.siIdx, hc]
  have hs0 : ScatterDims.start ⟨[1], [0], [0], 1, wf⟩ (ix2 e q) idx 0 = (idx (ixP e)).toInt := by
    simp [ScatterDims.start, hsi]
  have hs1 : ScatterDims.start ⟨[1], [0], [0], 1, wf⟩ (ix2 e q) idx 1 = 0 := by
    simp [ScatterDims.start]
  have hw0 : ScatterDims.window ⟨[1], [0], [0], 1, wf⟩ (ix2 e q) 0 = 0 := by
    simp [ScatterDims.window, ScatterDims.sKept, Shape.kept, List.finRange_succ]
  have hw1 : ScatterDims.window ⟨[1], [0], [0], 1, wf⟩ (ix2 e q) 1 = q.val := by
    simp [ScatterDims.window, ScatterDims.sKept, Shape.kept, List.finRange_succ]
    rfl
  have hi0 : (i 0).val < N := (i 0).isLt
  have hi1 : (i 1).val < D := (i 1).isLt
  have hq : q.val < D := q.isLt
  constructor
  · intro hres
    unfold ScatterDims.resultIdx? at hres
    split at hres
    · rename_i h
      have hf := Option.some.inj hres
      have h0 : (ScatterDims.start ⟨[1], [0], [0], 1, wf⟩ (ix2 e q) idx 0 + ScatterDims.window ⟨[1], [0], [0], 1, wf⟩ (ix2 e q) 0).toNat = (i 0).val :=
        congrArg (fun f => (f 0).val) hf
      have h1 : (ScatterDims.start ⟨[1], [0], [0], 1, wf⟩ (ix2 e q) idx 1 + ScatterDims.window ⟨[1], [0], [0], 1, wf⟩ (ix2 e q) 1).toNat = (i 1).val :=
        congrArg (fun f => (f 1).val) hf
      have hr0 := (h 0).1
      rw [hs0, hw0] at h0 hr0
      rw [hs1, hw1] at h1
      constructor <;> omega
    · exact absurd hres (by simp)
  · rintro ⟨h0, h1⟩
    unfold ScatterDims.resultIdx?
    have h : ∀ a, 0 ≤ ScatterDims.start ⟨[1], [0], [0], 1, wf⟩ (ix2 e q) idx a + ScatterDims.window ⟨[1], [0], [0], 1, wf⟩ (ix2 e q) a
        ∧ ScatterDims.start ⟨[1], [0], [0], 1, wf⟩ (ix2 e q) idx a + ScatterDims.window ⟨[1], [0], [0], 1, wf⟩ (ix2 e q) a < ((⟨2, ![N, D]⟩ : Shape).size a : ℤ) := by
      refine Fin.forall_fin_two.mpr ⟨?_, ?_⟩
      · rw [hs0, hw0]; show _ ∧ _ < ((N : ℕ) : ℤ); omega
      · rw [hs1, hw1]; show _ ∧ _ < ((D : ℕ) : ℤ); omega
    rw [dif_pos h]
    congr 1
    funext a
    apply Fin.ext
    match a with
    | ⟨0, _⟩ => show (ScatterDims.start ⟨[1], [0], [0], 1, wf⟩ (ix2 e q) idx 0 + ScatterDims.window ⟨[1], [0], [0], 1, wf⟩ (ix2 e q) 0).toNat = (i 0).val; rw [hs0, hw0]; omega
    | ⟨1, _⟩ => show (ScatterDims.start ⟨[1], [0], [0], 1, wf⟩ (ix2 e q) idx 1 + ScatterDims.window ⟨[1], [0], [0], 1, wf⟩ (ix2 e q) 1).toNat = (i 1).val; rw [hs1, hw1]; omega

/-- Where an update of a flat accumulating scatter lands. -/
theorem scatter_flat_resultIdx {M n w : Nat} (d : ScatterDims ⟨1, ![M]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : (⟨1, ![M]⟩ : Shape).Idx) :
    d.resultIdx? (ix1 e) idx = some i ↔ (idx (ixP e)).toInt = ((i 0).val : ℤ) := by
  obtain ⟨uw, iw, sd, ivd, wf⟩ := d
  simp only at huw hiw hsd hivd
  subst huw hiw hsd hivd
  have hsi : ∀ c, (ScatterDims.siIdx ⟨[], [0], [0], 1, wf⟩ (ix1 e) c : (⟨2, ![n, 1]⟩ : Shape).Idx) = ixP e := by
    intro c
    funext b
    apply Fin.ext
    match b with
    | ⟨0, _⟩ =>
      simp [ScatterDims.siIdx, ScatterDims.siCoord, ScatterDims.uScatter, ScatterDims.siKept, Shape.kept, List.finRange_succ]
      rfl
    | ⟨1, _⟩ =>
      have hc : c.val = 0 := by have := c.isLt; change c.val < 1 at this; omega
      simp [ScatterDims.siIdx, hc]
  have hs0 : ScatterDims.start ⟨[], [0], [0], 1, wf⟩ (ix1 e) idx 0 = (idx (ixP e)).toInt := by
    simp [ScatterDims.start, hsi]
  have hw0 : ScatterDims.window ⟨[], [0], [0], 1, wf⟩ (ix1 e) 0 = 0 := by
    simp [ScatterDims.window, ScatterDims.sKept, Shape.kept, List.finRange_succ]
  have hi0 : (i 0).val < M := (i 0).isLt
  constructor
  · intro hres
    unfold ScatterDims.resultIdx? at hres
    split at hres
    · rename_i h
      have hf := Option.some.inj hres
      have h0 : (ScatterDims.start ⟨[], [0], [0], 1, wf⟩ (ix1 e) idx 0 + ScatterDims.window ⟨[], [0], [0], 1, wf⟩ (ix1 e) 0).toNat = (i 0).val :=
        congrArg (fun f => (f 0).val) hf
      have hr0 := (h 0).1
      rw [hs0, hw0] at h0 hr0
      omega
    · exact absurd hres (by simp)
  · intro h0
    unfold ScatterDims.resultIdx?
    have h : ∀ a, 0 ≤ ScatterDims.start ⟨[], [0], [0], 1, wf⟩ (ix1 e) idx a + ScatterDims.window ⟨[], [0], [0], 1, wf⟩ (ix1 e) a
        ∧ ScatterDims.start ⟨[], [0], [0], 1, wf⟩ (ix1 e) idx a + ScatterDims.window ⟨[], [0], [0], 1, wf⟩ (ix1 e) a < ((⟨1, ![M]⟩ : Shape).size a : ℤ) := by
      refine Fin.forall_fin_one.mpr ?_
      rw [hs0, hw0]; show _ ∧ _ < ((M : ℕ) : ℤ); omega
    rw [dif_pos h]
    congr 1
    funext a
    apply Fin.ext
    match a with
    | ⟨0, _⟩ => show (ScatterDims.start ⟨[], [0], [0], 1, wf⟩ (ix1 e) idx 0 + ScatterDims.window ⟨[], [0], [0], 1, wf⟩ (ix1 e) 0).toNat = (i 0).val; rw [hs0, hw0]; omega

/-! ## The accumulating scatters at the extended reals, read at an index -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- A flat accumulating scatter at cell `k`: the cell's old value plus the updates whose index word, read signed, is `k`. -/
theorem scatterAdd_flat_apply {M n w : Nat} (d : ScatterDims ⟨1, ![M]⟩ ⟨2, ![n, 1]⟩ ⟨1, ![n]⟩)
    (huw : d.updateWindowDims = []) (hiw : d.insertedWindowDims = [0]) (hsd : d.scatterDimsToOperandDims = [0])
    (hivd : d.indexVectorDim = 1) (x : (⟨1, ![M]⟩ : Shape).Idx → EReal) (idx : IVec ⟨2, ![n, 1]⟩ w)
    (upd : (⟨1, ![n]⟩ : Shape).Idx → EReal) (k : Fin M) :
    Ideal.hostScatterAdd d x idx upd (ix1 k)
      = x (ix1 k) + ∑ e ∈ Finset.univ.filter (fun e : Fin n => (idx (ixP e)).toInt = (k.val : ℤ)), upd (ix1 e) := by
  unfold Ideal.hostScatterAdd
  congr 1
  rw [Finset.sum_filter, Finset.sum_filter, ← Equiv.sum_comp (idxEquiv1 (n := n)).symm]
  refine Finset.sum_congr rfl fun e _ => ?_
  show (if d.resultIdx? (ix1 e) idx = some (ix1 k) then upd (ix1 e) else 0) = _
  exact if_congr (scatter_flat_resultIdx d huw hiw hsd hivd idx e (ix1 k)) rfl rfl

/-- A row-wise accumulating scatter at `(r, q)`: the old value plus column `q` of the update rows whose index word, read
    signed, is `r`. -/
theorem scatterAdd_rows_apply {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1) (x : (⟨2, ![N, D]⟩ : Shape).Idx → EReal) (idx : IVec ⟨2, ![n, 1]⟩ w)
    (upd : (⟨2, ![n, D]⟩ : Shape).Idx → EReal) (r : Fin N) (q : Fin D) :
    Ideal.hostScatterAdd d x idx upd (ix2 r q)
      = x (ix2 r q) + ∑ e ∈ Finset.univ.filter (fun e : Fin n => (idx (ixP e)).toInt = (r.val : ℤ)), upd (ix2 e q) := by
  unfold Ideal.hostScatterAdd
  congr 1
  rw [Finset.sum_filter, Finset.sum_filter, sum_idx2]
  refine Finset.sum_congr rfl fun e _ => ?_
  have key : ∀ q' : Fin D, (if d.resultIdx? (ix2 e q') idx = some (ix2 r q) then upd (ix2 e q') else 0)
      = if q' = q then (if (idx (ixP e)).toInt = (r.val : ℤ) then upd (ix2 e q') else 0) else 0 := by
    intro q'
    have hiff := scatter_rows_resultIdx d huw hiw hsd hivd idx e q' (ix2 r q)
    by_cases hq : q' = q
    · rw [if_pos hq]
      refine if_congr (hiff.trans ⟨fun h => h.1, fun h => ⟨h, ?_⟩⟩) rfl rfl
      rw [hq]
      rfl
    · rw [if_neg hq, if_neg]
      intro h
      exact hq (Fin.ext (hiff.mp h).2)
  rw [Finset.sum_congr rfl (fun q' _ => key q'), Finset.sum_ite_eq' Finset.univ q, if_pos (Finset.mem_univ _)]

end Cert.LibIndexed

end
-- ==== Proof.KernelCounts.lean ====
/-
  The counts table the kernel's host code builds, read at an index.

  Before its one region the kernel's program splits the edge table into sources and destinations, reads every edge's
  category word out of the code table at the source position (a take), forms the flat cell word
  `22 · destination + category`, adds a one into a zero histogram of 2200000 cells at every edge's cell (an accumulating
  scatter: a word outside the histogram is dropped), and lays the histogram out as 100000 rows of 22 (a change of float
  format after it is the identity on the extended reals). So entry (j, k) of the table is the histogram's cell
  `22 · j + k`: zero plus a one for every edge whose flat cell word, read signed, is `22 · j + k`.
-/
import proofs.«422920_j17368847745439_3_alg».proof.Proof.Gen.KernelIdeal.Frame
import proofs.«422920_j17368847745439_3_alg».proof.Proof.Spec
import proofs.«422920_j17368847745439_3_alg».proof.Proof.LibIndexed
import Idealize.ShloMosaic.Lib.StableHlo.Run
import Idealize.ShloMosaic.Lib.IdealHost
import Idealize.ShloMosaic.Lib.Pipeline.Value
import Idealize.ShloMosaic.Lib.SortFacts

noncomputable section

open scoped BigOperators

namespace Cert.KernelIdeal.Counts

open Cert.KernelIdeal Cert.KernelIdeal.Gen Idealize.ShloMosaic Idealize.ShloMosaic.TcCoe Idealize.SL.Sem
open Idealize.ShloMosaic.StableHlo Idealize.ShloMosaic.ValueIdx
open Idealize.ShloMosaic.StableHlo.Predicate (ixP)
open Cert.CycleSum

/-! ## The host operations' term -/

/-- Row `k` of the edge table as a flat vector of 600000 words. -/
def sources (a : IVec S2x600000 32) : IVec S600000 32 :=
  shapeCast S600000 (extractStridedSlice S1x600000 ![0, 0] a slices_S2x600000_S1x600000_0_0) shapeCasts_S1x600000_S600000
def dests (a : IVec S2x600000 32) : IVec S600000 32 :=
  shapeCast S600000 (extractStridedSlice S1x600000 ![1, 0] a slices_S2x600000_S1x600000_1_0) shapeCasts_S1x600000_S600000

/-- The column of start indices of the take: every source word, counted from the end of the code table when negative. -/
def sourceIndex (a : IVec S2x600000 32) : IVec S600000x1 32 :=
  broadcastInDim S600000x1 ![0] bcast_S600000_S600000x1_0
    (select (cmpi .slt (sources a) (broadcastInDim S600000 ![] bcast_S_S600000 (constantI S_ 32 0#32)))
      (addi (sources a) (broadcastInDim S600000 ![] bcast_S_S600000 (constantI S_ 32 100000#32)))
      (sources a))

/-- The flat cell words, one per edge. -/
def flats (x : IVec S100000 32) (a : IVec S2x600000 32) : IVec S600000 32 :=
  addi (muli (dests a) (broadcastInDim S600000 ![] bcast_S_S600000 (constantI S_ 32 22#32)))
    (Host.gather gather_S100000_S600000x1_S600000_n_0_n_n_0_1_1 x (sourceIndex a))

/-- The histogram of the flat cell words. -/
def histogram (x : IVec S100000 32) (a : IVec S2x600000 32) : FVec Ideal S2200000 .f32 :=
  Host.scatterAdd (F := Ideal) scatter_S2200000_S600000x1_S600000_n_0_0_1
    (broadcastInDim S2200000 ![] bcast_S_S2200000 (constant (F := Ideal) S_ .f32 0x00000000#32))
    (broadcastInDim S600000x1 ![0] bcast_S600000_S600000x1_0 (flats x a))
    (broadcastInDim S600000 ![] bcast_S_S600000 (constant (F := Ideal) S_ .f32 0x3F800000#32))

/-- The counts table: the histogram as 100000 rows of 22. -/
def countsOf (x : IVec S100000 32) (a : IVec S2x600000 32) : FVec Ideal S100000x22 .bf16 :=
  truncf .bf16 (shapeCast S100000x22 (histogram x a) shapeCasts_S2200000_S100000x22) bitsLt_bf16_f32

variable (m : (ℓ : Loc nD τ sig) → Buf (Elt Ideal) ℓ)

/-- The region finds the counts table at that term of the launch memory's code table and edge table. -/
theorem V_counts (c : Dev nD) :
    (V m c main_v19 : S100000x22.Idx → EReal)
      = countsOf (m ((c : Thread nD τ).loc main_arg0)) (m ((c : Thread nD τ).loc main_arg1)) := by
  dsimp only [Gen.V, Gen.hostOps0]
  after_results
  rfl

/-! ## The term at an index -/

variable (x : IVec S100000 32) (a : IVec S2x600000 32)

theorem sources_at (e : Fin 600000) : sources a (ix1 e) = a (ix2 (0 : Fin 2) e) := by
  unfold sources
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · refine extractStridedSlice_apply ![0, 0] a slices_S2x600000_S1x600000_0_0 (ix2 (0 : Fin 1) e) (ix2 (0 : Fin 2) e) ?_
    intro b
    match b with
    | ⟨0, _⟩ => rfl
    | ⟨1, _⟩ => show e.val = 0 + e.val; omega

theorem dests_at (e : Fin 600000) : dests a (ix1 e) = destWord a e := by
  unfold dests destWord
  refine (shapeCast_apply _ shapeCasts_S1x600000_S600000 (ix1 e) (ix2 (0 : Fin 1) e) ?_).trans ?_
  · rw [Shape.rowMajor_val_two, Shape.rowMajor_val_one]
    show 0 * 600000 + e.val = e.val
    omega
  · refine extractStridedSlice_apply ![1, 0] a slices_S2x600000_S1x600000_1_0 (ix2 (0 : Fin 1) e) (ix2 (1 : Fin 2) e) ?_
    intro b
    match b with
    | ⟨0, _⟩ => rfl
    | ⟨1, _⟩ => show e.val = 0 + e.val; omega

/-- A rank-1 index from its coordinate, in the two spellings. -/
theorem ofFin_eq_ix1 {n : Nat} (k : Fin n) : Shape.Idx.ofFin k = ix1 k := by
  funext b
  match b with
  | ⟨0, _⟩ => exact Fin.ext rfl

/-- The start index of edge `e`: its source word, counted from the end when negative. -/
theorem sourceIndex_at (e : Fin 600000) : sourceIndex a (ixP e) = fromEnd 100000#32 (a (ix2 (0 : Fin 2) e)) := by
  unfold sourceIndex
  refine (broadcastInDim_apply _ bcast_S600000_S600000x1_0 _ (ixP e) (ix1 e) ?_).trans ?_
  · intro b
    match b with
    | ⟨0, _⟩ => show e.val = if (600000 : Nat) = 1 then 0 else e.val; rw [if_neg (by decide)]
  · show Scalar.select (IntOp.cmpi .slt (sources a (ix1 e)) 0#32) (IntOp.addi (sources a (ix1 e)) 100000#32) (sources a (ix1 e)) = _
    rw [sources_at]
    rfl

/-- Edge `e`'s flat cell word is `22 · destination + category`, in 32-bit words. -/
theorem flats_at (e : Fin 600000) :
    flats x a (ix1 e) = IntOp.addi (IntOp.muli (destWord a e) 22#32) (catWord x a e) := by
  unfold flats
  show IntOp.addi (IntOp.muli (dests a (ix1 e)) 22#32)
    (Host.gather gather_S100000_S600000x1_S600000_n_0_n_n_0_1_1 x (sourceIndex a) (ix1 e)) = _
  rw [dests_at, ← ofFin_eq_ix1 e,
    StableHlo.Predicate.gather_take gather_S100000_S600000x1_S600000_n_0_n_n_0_1_1 rfl rfl rfl rfl x (sourceIndex a) e (by decide),
    ofFin_eq_ix1]
  show IntOp.addi (IntOp.muli (destWord a e) 22#32) (x (ix1 (pos 100000 (by decide) (sourceIndex a (ixP e))))) = _
  rw [sourceIndex_at]
  rfl

/-- ENTRY (j, k) OF THE COUNTS TABLE: a one for every edge whose flat cell word is `22 · j + k`. -/
theorem countsOf_apply (j : Fin 100000) (k : Fin 22) :
    countsOf x a (ix2 j k)
      = ∑ _e ∈ Finset.univ.filter (fun e : Fin 600000 =>
          (IntOp.addi (IntOp.muli (destWord a e) 22#32) (catWord x a e)).toInt = ((j.val * 22 + k.val : ℕ) : ℤ)), (1 : EReal) := by
  unfold countsOf
  show shapeCast S100000x22 (histogram x a) shapeCasts_S2200000_S100000x22 (ix2 j k) = _
  have hlt : j.val * 22 + k.val < 2200000 := by have := j.isLt; have := k.isLt; omega
  refine (shapeCast_apply _ shapeCasts_S2200000_S100000x22 (ix2 j k) (ix1 ⟨j.val * 22 + k.val, hlt⟩) ?_).trans ?_
  · rw [Shape.rowMajor_val_one, Shape.rowMajor_val_two]
    rfl
  unfold histogram
  show Ideal.hostScatterAdd scatter_S2200000_S600000x1_S600000_n_0_0_1 _ _ _ (ix1 ⟨j.val * 22 + k.val, hlt⟩) = _
  rw [Cert.LibIndexed.scatterAdd_flat_apply scatter_S2200000_S600000x1_S600000_n_0_0_1 rfl rfl rfl rfl]
  have h0 : (broadcastInDim S2200000 ![] bcast_S_S2200000 (constant (F := Ideal) S_ .f32 0x00000000#32) : FVec Ideal S2200000 .f32)
      (ix1 ⟨j.val * 22 + k.val, hlt⟩) = 0 := by
    show Ideal.ofBits .f32 0x00000000#32 = 0
    exact Ideal.ofBits_zero_f32
  rw [h0, zero_add]
  refine Finset.sum_congr (Finset.filter_congr fun e _ => ?_) fun e _ => ?_
  · have hidx : (broadcastInDim S600000x1 ![0] bcast_S600000_S600000x1_0 (flats x a) : IVec S600000x1 32) (ixP e) = flats x a (ix1 e) := by
      refine broadcastInDim_apply _ bcast_S600000_S600000x1_0 (flats x a) (ixP e) (ix1 e) ?_
      intro b
      match b with
      | ⟨0, _⟩ => show e.val = if (600000 : Nat) = 1 then 0 else e.val; rw [if_neg (by decide)]
    rw [hidx, flats_at]
  · show Ideal.ofBits .f32 0x3F800000#32 = 1
    exact Ideal.ofBits_one_f32

end Cert.KernelIdeal.Counts

end
-- ==== Proof.PreRanges.lean ====
/-
  The precondition, read back.

  Beside the finiteness of the embedding table (which nothing below needs), the precondition says that every category code
  is one of the 22 embedding rows, `0 ≤ x < 22`, and that every destination (row 1 of the edge table) is one of the 100000
  result rows, `0 ≤ destination < 100000`, all read signed. Each is a conjunction of two comparisons folded by "and" over
  the whole array; the fold being 1 means every entry's comparison bit is 1.
-/
import proofs.«422920_j17368847745439_3_alg».proof.Pre_finite_inputs
import Idealize.ShloMosaic.Lib.ReduceAll
import Idealize.ShloMosaic.Lib.ValueIdx
import Idealize.ShloMosaic.Lib.Pipeline.Value

noncomputable section

namespace Cert.Pre_finite_inputs.Ranges

open Cert.Pre_finite_inputs Idealize.ShloMosaic Idealize.ShloMosaic.ValueIdx

variable {F : FTy → Type} [FloatOps F] [Cert.Pre_finite_inputs.Facts]

instance : Subsingleton S_.Idx := ⟨fun a b => funext fun d => d.elim0⟩

/-- The precondition's two integer ranges: every category code in `[0, 22)`, every destination in `[0, 100000)`. -/
theorem ranges (x : IVec S100000 32) (a : IVec S2x600000 32) (w : FVec F S22x128 .f32)
    (h : Cert.Pre_finite_inputs.fn (F := F) x a w = fun _ => 1#1) :
    (∀ i : S100000.Idx, 0 ≤ (x i).toInt ∧ (x i).toInt < 22)
      ∧ ∀ e : Fin 600000, 0 ≤ (a (ix2 (1 : Fin 2) e)).toInt ∧ (a (ix2 (1 : Fin 2) e)).toInt < 100000 := by
  have e := congrFun h ix0
  unfold Cert.Pre_finite_inputs.fn Cert.Pre_finite_inputs.fn_part1 at e
  dsimp only at e
  obtain ⟨e10, e20⟩ := IntOp.andi_eq_one.1 e
  obtain ⟨-, e9⟩ := IntOp.andi_eq_one.1 e10
  refine ⟨fun i => ?_, fun ed => ?_⟩
  · have hi := Host.reduce_andi_all _ _ _ _ ix0 e9 i
    obtain ⟨h0, h1⟩ := IntOp.andi_eq_one.1 hi
    have h0' := IntOp.cmpi_sge.1 h0
    have h1' := IntOp.cmpi_slt.1 h1
    exact ⟨h0', h1'⟩
  · have hi := Host.reduce_andi_all _ _ _ _ ix0 e20 (ix1 ed)
    obtain ⟨h0, h1⟩ := IntOp.andi_eq_one.1 hi
    have h0' := IntOp.cmpi_sge.1 h0
    have h1' := IntOp.cmpi_slt.1 h1
    -- the reshaped slice at position `ed` is the edge table at row 1, position `ed`
    have hrd : (shapeCast S600000 (extractStridedSlice S1x600000 ![1, 0] a Facts.slices_S2x600000_S1x600000_1_0)
        Facts.shapeCasts_S1x600000_S600000 : IVec S600000 32) (ix1 ed) = a (ix2 (1 : Fin 2) ed) := by
      refine (shapeCast_apply _ Facts.shapeCasts_S1x600000_S600000 (ix1 ed) (ix2 (0 : Fin 1) ed) ?_).trans ?_
      · rw [Shape.rowMajor_val_two, Shape.rowMajor_val_one]
        show 0 * 600000 + ed.val = ed.val
        omega
      · refine extractStridedSlice_apply ![1, 0] a Facts.slices_S2x600000_S1x600000_1_0 (ix2 (0 : Fin 1) ed) (ix2 (1 : Fin 2) ed) ?_
        intro b
        match b with
        | ⟨0, _⟩ => rfl
        | ⟨1, _⟩ => show ed.val = 0 + ed.val; omega
    rw [hrd] at h0' h1'
    exact ⟨h0', h1'⟩

end Cert.Pre_finite_inputs.Ranges

end
-- ==== Proof.KernelEdgeSum.lean ====
/-
  The kernel's result is the sum over the edges.

  The region leaves the product of the counts table with the embedding table. Entry (j, k) of the counts table counts the
  edges whose flat cell word is `22 · j + k`; under the precondition — every category code in `[0, 22)`, every destination
  in `[0, 100000)` — that word does not wrap and names cell `22 · j + k` exactly when the edge's destination is j and its
  category is k. So row j of the product is, category by category, the number of edges into j of that category times the
  category's embedding row: the embedding rows of the edges into j, added up.
-/
import proofs.«422920_j17368847745439_3_alg».proof.Defs
import proofs.«422920_j17368847745439_3_alg».proof.Proof.KernelProduct
import proofs.«422920_j17368847745439_3_alg».proof.Proof.KernelCounts
import proofs.«422920_j17368847745439_3_alg».proof.Proof.PreRanges
import proofs.«422920_j17368847745439_3_alg».proof.Proof.Gen.Pre_finite_inputs
import proofs.«422920_j17368847745439_3_alg».proof.Proof.Spec

noncomputable section

open scoped BigOperators

namespace Cert.KernelIdeal.EdgeSum

open Cert.KernelIdeal Cert.KernelIdeal.Gen Idealize.ShloMosaic Idealize.ShloMosaic.TcCoe Idealize.SL.Sem
open Idealize.ShloMosaic.ValueIdx
open Cert.CycleSum

variable (m : (ℓ : Loc nD τ sig) → Buf (Elt Ideal) ℓ)

/-- The product of the counts of the edges with the embedding table is the sum over the edges, when the codes and the
    destinations are in range. -/
theorem product_eq (x : IVec S100000 32) (a : IVec S2x600000 32) (w : FVec Ideal S22x128 .f32)
    (hx : ∀ i : S100000.Idx, 0 ≤ (x i).toInt ∧ (x i).toInt < 22)
    (ha : ∀ e : Fin 600000, 0 ≤ (destWord a e).toInt ∧ (destWord a e).toInt < 100000) :
    Product.prod (Counts.countsOf x a) w = result x a w := by
  funext i
  obtain ⟨j, d, rfl⟩ : ∃ (j : Fin 100000) (d : Fin 128), i = ix2 j d := ⟨i 0, i 1, eq_ix2 i⟩
  show ∑ k : Fin 22, Counts.countsOf x a (ix2 j k) * w (ix2 k d) = ∑ e ∈ into a j, w (ix2 (catPos x a e) d)
  have hcell : ∀ k : Fin 22, Counts.countsOf x a (ix2 j k)
      = ∑ _e ∈ (into a j).filter (fun e => catPos x a e = k), (1 : EReal) := by
    intro k
    rw [Counts.countsOf_apply]
    refine Finset.sum_congr ?_ fun _ _ => rfl
    ext e
    simp only [Finset.mem_filter, Finset.mem_univ, true_and, into]
    exact flat_eq_iff (destWord a e) (catWord x a e) (ha e).1 (ha e).2 (hx _).1 (hx _).2 j k
  simp only [hcell]
  exact hist_mul (into a j) (catPos x a) (fun k => w (ix2 k d))

/-- THE KERNEL'S RESULT ARRAY after the run, under the precondition, is the sum over the edges of the launch memory's
    code table, edge table and embedding table. -/
theorem result_eq (c : Dev nD) (hpre : Cert.Pre_KernelIdeal m) :
    (dats m 0 c).arrAt 2 cfg0.N
      = result (m ((c : Thread nD τ).loc main_arg0)) (m ((c : Thread nD τ).loc main_arg1)) (m ((c : Thread nD τ).loc main_arg2)) := by
  obtain ⟨hx, ha⟩ := Cert.Pre_finite_inputs.Ranges.ranges (F := Ideal) _ _ _ (hpre c)
  rw [Product.final]
  have hC : Product.counts m c = Counts.countsOf (m ((c : Thread nD τ).loc main_arg0)) (m ((c : Thread nD τ).loc main_arg1)) :=
    Counts.V_counts m c
  have hW : Product.table m c = m ((c : Thread nD τ).loc main_arg2) := V_main_arg2 m c
  rw [hC, hW]
  exact product_eq _ _ _ hx ha

end Cert.KernelIdeal.EdgeSum

end
-- ==== Proof.RefValue.lean ====
/-
  The reference's result is the sum over the edges.

  The reference looks every code up in the embedding table (a take of rows), looks every edge's source up in that (a second
  take of rows), and adds row e of the outcome into the result row the edge's destination names (an accumulating scatter of
  rows, from zero). Two takes of rows compose to one: edge e contributes the embedding row of its category. So the result at
  (r, q) is zero plus the sum, over the edges whose destination is r, of the embedding of the edge's category at column q.
-/
import proofs.«422920_j17368847745439_3_alg».proof.Proof.Gen.ReferenceIdeal.Read
import proofs.«422920_j17368847745439_3_alg».proof.Proof.Spec
import proofs.«422920_j17368847745439_3_alg».proof.Proof.LibIndexed
import Idealize.ShloMosaic.PureOps.Ideal.Laws

noncomputable section

open scoped BigOperators

namespace Cert.ReferenceIdeal.EdgeSum

open Cert.ReferenceIdeal Cert.ReferenceIdeal.Gen Cert.ReferenceIdeal.Read
open Idealize.ShloMosaic Idealize.ShloMosaic.ValueIdx
open Idealize.ShloMosaic.StableHlo.Predicate (ixP)
open Cert.CycleSum

variable (x : IVec S100000 32) (a : IVec S2x600000 32) (w : FVec Ideal S22x128 .f32)

/-- Row 0 of the edge table, flattened, at edge `e`. -/
theorem src_word (e : Fin 600000) : val_main_v8 (F := Ideal) a (ix1 e) = a (ix2 (0 : Fin 2) e) := by
  rw [val_main_v8_apply, val_main_v7_apply]
  congr 1
  funext b
  match b with
  | ⟨0, _⟩ => rfl
  | ⟨1, _⟩ => exact Fin.ext (Nat.mod_eq_of_lt e.isLt)

/-- Row 1 of the edge table, flattened, at edge `e`. -/
theorem dest_word (e : Fin 600000) : val_main_v17 (F := Ideal) a (ix1 e) = a (ix2 (1 : Fin 2) e) := by
  rw [val_main_v17_apply, val_main_v16_apply]
  congr 1
  funext b
  match b with
  | ⟨0, _⟩ => rfl
  | ⟨1, _⟩ => exact Fin.ext (Nat.mod_eq_of_lt e.isLt)

/-- The column of start indices of the second take, at edge `e`: the source word counted from the end when negative. -/
theorem src_index (e : Fin 600000) : val_main_v14 (F := Ideal) a (ixP e) = fromEnd 100000#32 (a (ix2 (0 : Fin 2) e)) := by
  rw [val_main_v14_apply]
  show val_main_v13 (F := Ideal) a (ix1 e) = _
  rw [val_main_v13_apply, val_main_v10_apply, val_main_v12_apply, src_word]
  rfl

/-- The column of start indices of the first take, at position `s`: the code counted from the end when negative. -/
theorem code_index (s : Fin 100000) : val_main_v5 (F := Ideal) x (ixP s) = fromEnd 22#32 (x (ix1 s)) := by
  rw [val_main_v5_apply]
  have hi : idx_main_v5 (ixP s) = ix1 s := by
    funext b
    match b with
    | ⟨0, _⟩ => rfl
  rw [hi]
  rfl

/-- The column of scatter indices, at edge `e`: the destination word. -/
theorem dest_index (e : Fin 600000) : val_main_v19 (F := Ideal) a (ixP e) = destWord a e := by
  rw [val_main_v19_apply]
  show val_main_v17 (F := Ideal) a (ix1 e) = _
  exact dest_word a e

/-- The first take: row `s` is the embedding row of the code at `s`. -/
theorem looked_up (s : Fin 100000) (q : Fin 128) :
    val_main_v6 (F := Ideal) x w (ix2 s q) = w (ix2 (pos 22 (by decide) (fromEnd 22#32 (x (ix1 s)))) q) := by
  unfold val_main_v6
  rw [Cert.LibIndexed.gather_rows gather_S22x128_S100000x1_S100000x128_1_0_n_n_0_1_1128 rfl rfl rfl rfl rfl w _ s q (by decide)]
  show w (ix2 (pos 22 (by decide) (val_main_v5 (F := Ideal) x (ixP s))) q) = _
  rw [code_index]

/-- The second take: row `e` is the embedding row of edge `e`'s category. -/
theorem gathered (e : Fin 600000) (q : Fin 128) :
    val_main_v15 (F := Ideal) x a w (ix2 e q) = w (ix2 (catPos x a e) q) := by
  unfold val_main_v15
  rw [Cert.LibIndexed.gather_rows gather_S100000x128_S600000x1_S600000x128_1_0_n_n_0_1_1128 rfl rfl rfl rfl rfl _ _ e q (by decide)]
  show val_main_v6 (F := Ideal) x w (ix2 (pos 100000 (by decide) (val_main_v14 (F := Ideal) a (ixP e))) q) = _
  rw [src_index]
  exact looked_up x w (srcPos a e) q

/-- THE REFERENCE'S RESULT is the sum over the edges. -/
theorem result_eq : val_main_v20 (F := Ideal) x a w = result x a w := by
  funext i
  obtain ⟨r, q, rfl⟩ : ∃ (r : Fin 100000) (q : Fin 128), i = ix2 r q := ⟨i 0, i 1, eq_ix2 i⟩
  unfold val_main_v20
  show Ideal.hostScatterAdd scatter_S100000x128_S600000x1_S600000x128_1_0_0_1 _ _ _ (ix2 r q) = _
  rw [Cert.LibIndexed.scatterAdd_rows_apply scatter_S100000x128_S600000x1_S600000x128_1_0_0_1 rfl rfl rfl rfl]
  rw [val_main_v18_apply, val_main_cst_apply]
  show Ideal.ofBits .f32 0x00000000#32 + _ = _
  rw [Ideal.ofBits_zero_f32, zero_add]
  unfold result into
  refine Finset.sum_congr ?_ fun e _ => gathered x a w e q
  exact Finset.filter_congr fun e _ => by rw [dest_index]

end Cert.ReferenceIdeal.EdgeSum

end
-- ==== Proof.lean ====
/-
  A sum of embedding rows over edges, two ways.

  Inputs: a code table x of 100000 category codes, an edge table of 600000 (source, destination) pairs, and an embedding
  table of 22 rows of 128 numbers. Each edge e reads its category from the code table at its source, and row j of the result
  is the sum of the embedding rows of the categories of the edges whose destination is j.

  The reference gathers the embedding row of every edge and adds the rows into the result, edge by edge. The kernel first
  builds a histogram, counts (j, k) = the number of edges with destination j and category k, through the flat cell number
  22 · j + k, and then multiplies the 100000 × 22 counts with the 22 × 128 embedding table in ten blocks of rows.

  Over the extended reals the two agree under the precondition that every code is in [0, 22) and every destination in
  [0, 100000) (then the flat cell number does not wrap and determines the pair): a count is a sum of ones, a sum of ones
  times a number is that number added once per one (ones are non-negative, so this needs no finiteness), and summing over
  the categories and then over the edges of each category is summing over the edges. Sources need no range: both programs
  read the code table at the same position, the source held inside the table.

  The three runs: both kernels' frames are the generated ones; the reference's is its generated run. The ideal pass
  rewrote nothing, so there is nothing to preserve.
-/
import proofs.«422920_j17368847745439_3_alg».proof.Defs
import proofs.«422920_j17368847745439_3_alg».proof.Proof.Gen.Kernel
import proofs.«422920_j17368847745439_3_alg».proof.Proof.Gen.Kernel.Skeleton
import proofs.«422920_j17368847745439_3_alg».proof.Proof.Gen.Kernel.Launch
import proofs.«422920_j17368847745439_3_alg».proof.Proof.Gen.Kernel.Points
import proofs.«422920_j17368847745439_3_alg».proof.Proof.Gen.Kernel.Frame
import proofs.«422920_j17368847745439_3_alg».proof.Proof.Gen.KernelIdeal
import proofs.«422920_j17368847745439_3_alg».proof.Proof.Gen.KernelIdeal.Skeleton
import proofs.«422920_j17368847745439_3_alg».proof.Proof.Gen.KernelIdeal.Launch
import proofs.«422920_j17368847745439_3_alg».proof.Proof.Gen.KernelIdeal.Points
import proofs.«422920_j17368847745439_3_alg».proof.Proof.Gen.KernelIdeal.Frame
import proofs.«422920_j17368847745439_3_alg».proof.Proof.Gen.ReferenceIdeal
import proofs.«422920_j17368847745439_3_alg».proof.Proof.Gen.Pre_finite_inputs
import proofs.«422920_j17368847745439_3_alg».proof.Proof.Gen.KernelIdeal.Value
import proofs.«422920_j17368847745439_3_alg».proof.Proof.Gen.ReferenceIdeal.Run
import proofs.«422920_j17368847745439_3_alg».proof.Proof.Gen.ReferenceIdeal.Read
import proofs.«422920_j17368847745439_3_alg».proof.Proof.KernelEdgeSum
import proofs.«422920_j17368847745439_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the sum over the edges of the arguments they agree on. -/
theorem algebraic : Cert.algebraic_KernelIdeal_ReferenceIdeal := by
  intro m ρ m' ρ' hpre hagree
  refine ⟨fun c => Cert.CycleSum.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.EdgeSum.result_eq m c hpre), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.EdgeSum.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
